-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x768 : Shape := ⟨2, ![1, 768]⟩
abbrev S128x65 : Shape := ⟨2, ![128, 65]⟩
abbrev S128 : Shape := ⟨1, ![128]⟩
abbrev S_ : Shape := ⟨0, ![]⟩

class Facts : Prop where
  bcast_S_S128x65 : S_.BroadcastsInDim S128x65 (![] : Fin 0 → Fin S128x65.rank)
  reducesTo_S128x65_S_d0_1 : S128x65.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : IVec S1x768 32) (main_arg1 : FVec F S128x65 .f32) (main_arg2 : FVec F S128 .f32) : IVec S_ 1 :=
  let main_v0 : FVec F S128x65 .f32 := Host.absf main_arg1
  let main_cst : FVec F S_ .f32 := constant S_ .f32 0x7F800000#32
  let main_v1 : FVec F S128x65 .f32 := broadcastInDim S128x65 ![] bcast_S_S128x65 main_cst
  let main_v2 : IVec S128x65 1 := cmpf .olt main_v0 main_v1
  let main_c : IVec S_ 1 := constantI S_ 1 1#1
  let main_v3 : IVec S_ 1 := (fun x v => Host.reduce IntOp.andi x v reducesTo_S128x65_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S1x768 : Shape := ⟨2, ![1, 768]⟩
abbrev S128x65 : Shape := ⟨2, ![128, 65]⟩
abbrev S128 : Shape := ⟨1, ![128]⟩
abbrev S_ : Shape := ⟨0, ![]⟩
abbrev S768 : Shape := ⟨1, ![768]⟩
abbrev S768x1 : Shape := ⟨2, ![768, 1]⟩
abbrev S65x128 : Shape := ⟨2, ![65, 128]⟩
abbrev S1x128 : Shape := ⟨2, ![1, 128]⟩
abbrev S128x128 : Shape := ⟨2, ![128, 128]⟩
abbrev S1x768x768x128 : Shape := ⟨4, ![1, 768, 768, 128]⟩
abbrev S128x1 : Shape := ⟨2, ![128, 1]⟩
abbrev S1x128x128x128 : Shape := ⟨4, ![1, 128, 128, 128]⟩
abbrev S128x128x128 : Shape := ⟨3, ![128, 128, 128]⟩
abbrev S128x128x1 : Shape := ⟨3, ![128, 128, 1]⟩
abbrev S16384x128 : Shape := ⟨2, ![16384, 128]⟩

abbrev nBuf : Space → Nat
  | .hbm => 26
  | .vmem => 8
  | .smem => 0
  | _ => 0

abbrev bufTy : (tb : Table) → Fin (tcTables nBuf tb) → BufTy
  | .hbm, ⟨0, _⟩ => ⟨S1x768, .i32⟩
  | .hbm, ⟨1, _⟩ => ⟨S128x65, .f32⟩
  | .hbm, ⟨2, _⟩ => ⟨S128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1x768, .i32⟩
  | .hbm, ⟨7, _⟩ => ⟨S1x768, .i32⟩
  | .hbm, ⟨8, _⟩ => ⟨S_, .i32⟩
  | .hbm, ⟨9, _⟩ => ⟨S1x768, .i32⟩
  | .hbm, ⟨10, _⟩ => ⟨S1x768, .i32⟩
  | .hbm, ⟨11, _⟩ => ⟨S768, .i32⟩
  | .hbm, ⟨12, _⟩ => ⟨S768x1, .i32⟩
  | .hbm, ⟨13, _⟩ => ⟨S1x768, .i32⟩
  | .hbm, ⟨14, _⟩ => ⟨S65x128, .f32⟩
  | .hbm, ⟨15, _⟩ => ⟨S1x128, .f32⟩
  | .hbm, ⟨16, _⟩ => ⟨S65x128, .f32⟩
  | .hbm, ⟨17, _⟩ => ⟨S65x128, .f32⟩
  | .hbm, ⟨18, _⟩ => ⟨S_, .i32⟩
  | .hbm, ⟨19, _⟩ => ⟨S_, .f32⟩
  | .hbm, ⟨20, _⟩ => ⟨S128x128, .f32⟩
  | .hbm, ⟨21, _⟩ => ⟨S128x128, .bf16⟩
  | .hbm, ⟨22, _⟩ => ⟨S128x128, .f32⟩
  | .hbm, ⟨23, _⟩ => ⟨S128x128, .f32⟩
  | .hbm, ⟨24, _⟩ => ⟨S128x128, .bf16⟩
  | .hbm, ⟨25, _⟩ => ⟨S1x768x768x128, .f32⟩
  | .local _ .vmem, ⟨0, _⟩ => ⟨S128x1, .i32⟩
  | .local _ .vmem, ⟨1, _⟩ => ⟨S128x1, .i32⟩
  | .local _ .vmem, ⟨2, _⟩ => ⟨S1x128, .i32⟩
  | .local _ .vmem, ⟨3, _⟩ => ⟨S1x128, .i32⟩
  | .local _ .vmem, ⟨4, _⟩ => ⟨S128x128, .bf16⟩
  | .local _ .vmem, ⟨5, _⟩ => ⟨S128x128, .bf16⟩
  | .local _ .vmem, ⟨6, _⟩ => ⟨S1x128x128x128, .f32⟩
  | .local _ .vmem, ⟨7, _⟩ => ⟨S1x128x128x128, .f32⟩
  | _, _ => ⟨S1x768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![6, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S128x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S1x768 : S_.BroadcastsInDim S1x768 (![] : Fin 0 → Fin S1x768.rank)
  shapeCasts_S1x768_S768 : S1x768.ShapeCasts S768
  shapeCasts_S768_S768x1 : S768.ShapeCasts S768x1
  shapeCasts_S768_S1x768 : S768.ShapeCasts S1x768
  transposes_S128x65_S65x128_1_0 : S128x65.Transposes [1, 0] S65x128
  bcast_S128_S1x128_1 : S128.BroadcastsInDim S1x128 (![1] : Fin 1 → Fin S1x128.rank)
  bcast_S1x128_S65x128_0_1 : S1x128.BroadcastsInDim S65x128 (![0, 1] : Fin 2 → Fin S65x128.rank)
  pads_S65x128_S128x128_0630_000 : S65x128.Pads (![0, 0] : Fin 2 → Nat) ![63, 0] ![0, 0] S128x128
  h_S_ : 0 < S_.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S128x1_S128x128 : S128x1.Broadcasts S128x128
  broadcasts_S1x128_S128x128 : S1x128.Broadcasts S128x128
  iota_S128x128x128_d2_w32 : S128x128x128.Iotas .tc 32 [2]
  shapeCasts_S128x128_S128x128x1 : S128x128.ShapeCasts S128x128x1
  broadcasts_S128x128x1_S128x128x128 : S128x128x1.Broadcasts S128x128x128
  natLt_1_32 : 1 < 32
  shapeCasts_S128x128x128_S16384x128 : S128x128x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S16384x128_S1x128x128x128 : S16384x128.ShapeCasts S1x128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S768x1.size a
  hwx0_0 : ∀ i : grid0.Coords, EltTy.bits .i32 = 32 ∨ (Rect.block (s := S768x1) S128x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x768.size a
  hwx0_1 : ∀ i : grid0.Coords, EltTy.bits .i32 = 32 ∨ (Rect.block (s := S1x768) S1x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128x128.size a ≤ S1x768x768x128.size a
  hwx0_4 : ∀ i : grid0.Coords, EltTy.bits .f32 = 32 ∨ (Rect.block (s := S1x768x768x128) S1x128x128x128.size (cc0_transform_4 i) (hinb0_4 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v2) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x768 : Shape := ⟨2, ![1, 768]⟩
abbrev S128x65 : Shape := ⟨2, ![128, 65]⟩
abbrev S128 : Shape := ⟨1, ![128]⟩
abbrev S1x768x1 : Shape := ⟨3, ![1, 768, 1]⟩
abbrev S1x1x768 : Shape := ⟨3, ![1, 1, 768]⟩
abbrev S1x768x768 : Shape := ⟨3, ![1, 768, 768]⟩
abbrev S_ : Shape := ⟨0, ![]⟩
abbrev S65x128 : Shape := ⟨2, ![65, 128]⟩
abbrev S1x768x768x1 : Shape := ⟨4, ![1, 768, 768, 1]⟩
abbrev S1x768x768x128 : Shape := ⟨4, ![1, 768, 768, 128]⟩
abbrev S1x1x1x128 : Shape := ⟨4, ![1, 1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S1x768, .i32⟩
  | .hbm, ⟨1, _⟩ => ⟨S128x65, .f32⟩
  | .hbm, ⟨2, _⟩ => ⟨S128, .f32⟩
  | .hbm, ⟨3, _⟩ => ⟨S1x768x1, .i32⟩
  | .hbm, ⟨4, _⟩ => ⟨S1x1x768, .i32⟩
  | .hbm, ⟨5, _⟩ => ⟨S1x768x768, .i32⟩
  | .hbm, ⟨6, _⟩ => ⟨S1x768x768, .i32⟩
  | .hbm, ⟨7, _⟩ => ⟨S1x768x768, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1x768x768, .i32⟩
  | .hbm, ⟨12, _⟩ => ⟨S1x768x768, .i32⟩
  | .hbm, ⟨13, _⟩ => ⟨S_, .i32⟩
  | .hbm, ⟨14, _⟩ => ⟨S1x768x768, .i32⟩
  | .hbm, ⟨15, _⟩ => ⟨S1x768x768, .i32⟩
  | .hbm, ⟨16, _⟩ => ⟨S_, .i32⟩
  | .hbm, ⟨17, _⟩ => ⟨S1x768x768, .i32⟩
  | .hbm, ⟨18, _⟩ => ⟨S1x768x768, .i32⟩
  | .hbm, ⟨19, _⟩ => ⟨S65x128, .f32⟩
  | .hbm, ⟨20, _⟩ => ⟨S_, .i32⟩
  | .hbm, ⟨21, _⟩ => ⟨S1x768x768, .i32⟩
  | .hbm, ⟨22, _⟩ => ⟨S1x768x768, .i1⟩
  | .hbm, ⟨23, _⟩ => ⟨S_, .i32⟩
  | .hbm, ⟨24, _⟩ => ⟨S1x768x768, .i32⟩
  | .hbm, ⟨25, _⟩ => ⟨S1x768x768, .i32⟩
  | .hbm, ⟨26, _⟩ => ⟨S1x768x768, .i32⟩
  | .hbm, ⟨27, _⟩ => ⟨S1x768x768x1, .i32⟩
  | .hbm, ⟨28, _⟩ => ⟨S1x768x768x128, .f32⟩
  | .hbm, ⟨29, _⟩ => ⟨S1x1x1x128, .f32⟩
  | .hbm, ⟨30, _⟩ => ⟨S1x768x768x128, .f32⟩
  | .hbm, ⟨31, _⟩ => ⟨S1x768x768x128, .f32⟩
  | _, _ => ⟨S1x768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]

class Facts₀ : Prop where
  bcast_S1x768_S1x768x1_0_1 : S1x768.BroadcastsInDim S1x768x1 (![0, 1] : Fin 2 → Fin S1x768x1.rank)
  bcast_S1x768_S1x1x768_0_2 : S1x768.BroadcastsInDim S1x1x768 (![0, 2] : Fin 2 → Fin S1x1x768.rank)
  bcast_S1x768x1_S1x768x768_0_1_2 : S1x768x1.BroadcastsInDim S1x768x768 (![0, 1, 2] : Fin 3 → Fin S1x768x768.rank)
  bcast_S1x1x768_S1x768x768_0_1_2 : S1x1x768.BroadcastsInDim S1x768x768 (![0, 1, 2] : Fin 3 → Fin S1x768x768.rank)
  bcast_S_S1x768x768 : S_.BroadcastsInDim S1x768x768 (![] : Fin 0 → Fin S1x768x768.rank)
  transposes_S128x65_S65x128_1_0 : S128x65.Transposes [1, 0] S65x128
  bcast_S1x768x768_S1x768x768x1_0_1_2 : S1x768x768.BroadcastsInDim S1x768x768x1 (![0, 1, 2] : Fin 3 → Fin S1x768x768x1.rank)
  bcast_S128_S1x1x1x128_3 : S128.BroadcastsInDim S1x1x1x128 (![3] : Fin 1 → Fin S1x1x1x128.rank)
  bcast_S1x1x1x128_S1x768x768x128_0_1_2_3 : S1x1x1x128.BroadcastsInDim S1x768x768x128 (![0, 1, 2, 3] : Fin 4 → Fin S1x768x768x128.rank)
  gather_S65x128_S1x768x768x1_S1x768x768x128_3_0_n_n_0_3_1128_wf : GatherDims.WF S65x128 S1x768x768x1 S1x768x768x128 [3] [0] [] [0] [] 3 ![1, 128]

variable [Facts₀]

def gather_S65x128_S1x768x768x1_S1x768x768x128_3_0_n_n_0_3_1128 : GatherDims S65x128 S1x768x768x1 S1x768x768x128 where
  offsetDims := [3]
  collapsedSliceDims := [0]
  operandBatchingDims := []
  startIndicesBatchingDims := []
  startIndexMap := [0]
  indexVectorDim := 3
  sliceSizes := ![1, 128]
  wf := gather_S65x128_S1x768x768x1_S1x768x768x128_3_0_n_n_0_3_1128_wf

class Facts : Prop extends Facts₀ where

variable [Facts]
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.Finite.lean ====
/-
  The precondition, read back: every entry of the weight matrix and of the bias is a real number.

  The precondition is `all(|W| < +inf) and all(|b| < +inf)`. An `all` that comes out true was true at every entry;
  `|x| = max(x, −x)` below `+inf` rules out both infinities, since `−(−inf) = +inf`; and an extended real that is
  neither infinity is a real.
-/
import proofs.«409507_j1279900254323_3_alg».proof.Pre_finite_inputs
import proofs.«409507_j1279900254323_3_alg».proof.Proof.Gen.Pre_finite_inputs
import proofs.«409507_j1279900254323_3_alg».proof.Proof.LibFinite
import Idealize.ShloMosaic.Lib.ReduceAll
import Idealize.ShloMosaic.Lib.ValueIdx
import Idealize.ShloMosaic.PureOps.Ideal

noncomputable section

namespace Cert.RelPos

open Idealize.ShloMosaic Cert.Fin
open Cert.Pre_finite_inputs Cert.Pre_finite_inputs.Gen

/-- The word `0x7F800000` denotes `+inf`. -/
theorem ofBits_inf : Ideal.ofBits .f32 0x7F800000#32 = (⊤ : EReal) := by
  simp [Ideal.ofBits, Ideal.ieee]

/-- `max(x, −x) < +inf` leaves `x` a real number. -/
theorem isFin_of_abs_lt_inf (x : EReal)
    (e : Ideal.cmp .olt (max x (-x)) (Ideal.ofBits .f32 0x7F800000#32) = 1#1) : IsFin x := by
  rw [ofBits_inf] at e
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at e
    exact absurd e (by decide)
  induction x using EReal.rec with
  | bot => exact absurd hlt (by simp)
  | top => exact absurd hlt (by simp)
  | coe r => exact ⟨r, rfl⟩

instance : Subsingleton S_.Idx := ⟨fun a b => funext fun d => d.elim0⟩

/-- Under the precondition the weight matrix and the bias are finite arrays. -/
theorem allFin_of_pre (a0 : IVec S1x768 32) (a1 : FVec Ideal S128x65 .f32) (a2 : FVec Ideal S128 .f32)
    (h : Cert.Pre_finite_inputs.fn (F := Ideal) a0 a1 a2 = fun _ => 1#1) : AllFin a1 ∧ AllFin a2 := by
  have h0 := congrFun h ValueIdx.ix0
  dsimp only [Cert.Pre_finite_inputs.fn] at h0
  obtain ⟨h1, h2⟩ := IntOp.andi_eq_one.1 h0
  exact ⟨fun i => isFin_of_abs_lt_inf (a1 i) (Host.reduce_andi_all _ _ _ _ _ h1 i),
    fun i => isFin_of_abs_lt_inf (a2 i) (Host.reduce_andi_all _ _ _ _ _ h2 i)⟩

end Cert.RelPos

end
-- ==== Proof.Offset.lean ====
/-
  The clamped relative offset on 32-bit words.

  Both programs turn a pair of residue indices `a`, `b` into the bin `clip(a − b, −32, 32) + 32`, computed on
  two's-complement words: the difference may wrap, the clamp is signed, and the shift by 32 cannot wrap after
  the clamp. Read as a signed integer the bin lies in `[0, 64]`, so it names a row of a 65-row table. This file
  states that range, and the three word facts the two programs lean on around it: a clamp to the whole signed
  range changes nothing; a "negative index wraps round" select does nothing to a bin; and comparing a bin with a
  lane number below 128 is comparing naturals, so the 0/1 vector "bin = lane" has exactly one 1.
-/
import Idealize.ShloMosaic.PureOps
import Idealize.ShloMosaic.PureOps.Ideal

noncomputable section

namespace Cert.RelPos

open Idealize.ShloMosaic

/-- `clip(a − b, −32, 32) + 32` on words: the signed maximum with −32, the signed minimum with 32, plus 32. -/
def bin (a b : BitVec 32) : BitVec 32 :=
  IntOp.addi (IntOp.minsi 32#32 (IntOp.maxsi 4294967264#32 (IntOp.subi a b))) 32#32

/-- The signed clamp to `[−32, 32]` lands in `[−32, 32]`, whatever the word. -/
theorem clamp_bounds (x : BitVec 32) :
    -32 ≤ (IntOp.minsi 32#32 (IntOp.maxsi 4294967264#32 x)).toInt
      ∧ (IntOp.minsi 32#32 (IntOp.maxsi 4294967264#32 x)).toInt ≤ 32 := by
  have hm : (4294967264#32 : BitVec 32).toInt = -32 := by decide
  have hp : (32#32 : BitVec 32).toInt = 32 := by decide
  unfold IntOp.minsi IntOp.maxsi
  by_cases h1 : x.slt 4294967264#32 = true
  · rw [if_pos h1]
    by_cases h2 : (32#32 : BitVec 32).slt 4294967264#32 = true
    · rw [if_pos h2]; omega
    · rw [if_neg h2]; omega
  · rw [if_neg h1]
    have h1' : ¬ x.toInt < (4294967264#32 : BitVec 32).toInt := fun h => h1 (BitVec.slt_iff_toInt_lt.mpr h)
    by_cases h2 : (32#32 : BitVec 32).slt x = true
    · rw [if_pos h2]; omega
    · rw [if_neg h2]
      have h2' : ¬ (32#32 : BitVec 32).toInt < x.toInt := fun h => h2 (BitVec.slt_iff_toInt_lt.mpr h)
      omega

/-- The bin, read signed, is between 0 and 64: the shift by 32 of a value in `[−32, 32]` does not wrap. -/
theorem bin_bounds (a b : BitVec 32) : 0 ≤ (bin a b).toInt ∧ (bin a b).toInt ≤ 64 := by
  obtain ⟨h1, h2⟩ := clamp_bounds (IntOp.subi a b)
  have hp : (32#32 : BitVec 32).toInt = 32 := by decide
  unfold bin IntOp.addi
  rw [BitVec.toInt_add, hp]
  generalize (IntOp.minsi 32#32 (IntOp.maxsi 4294967264#32 (IntOp.subi a b))).toInt = z at h1 h2 ⊢
  have e : (z + 32).bmod (2 ^ 32) = z + 32 := by
    rw [Int.bmod_def]
    norm_num
    omega
  rw [e]; omega

/-- So its unsigned reading is the signed one, … -/
theorem bin_toInt_toNat (a b : BitVec 32) : (bin a b).toInt.toNat = (bin a b).toNat := by
  obtain ⟨h1, h2⟩ := bin_bounds a b
  have hc := BitVec.toInt_eq_toNat_cond (bin a b)
  have hlt : (bin a b).toNat < 2 ^ 32 := (bin a b).isLt
  split at hc <;> omega

/-- … at most 64. -/
theorem bin_toNat_le (a b : BitVec 32) : (bin a b).toNat ≤ 64 := by
  obtain ⟨h1, h2⟩ := bin_bounds a b
  have := bin_toInt_toNat a b
  omega

/-- The bin as a row of a 65-row table. The `min` with 64 is what a gather's clamp of its start index does; it
    changes nothing here (`bin_toNat_le`) and makes the bound immediate. -/
def binRow (a b : BitVec 32) : Fin 65 := ⟨min (bin a b).toInt.toNat 64, by omega⟩

theorem binRow_val (a b : BitVec 32) : (binRow a b).val = (bin a b).toNat := by
  show min (bin a b).toInt.toNat 64 = _
  rw [bin_toInt_toNat]
  exact Nat.min_eq_left (bin_toNat_le a b)

/-- A signed clamp to the whole 32-bit range is the identity. -/
theorem clamp_full (x : BitVec 32) : IntOp.minsi 2147483647#32 (IntOp.maxsi 2147483648#32 x) = x := by
  have hlo : (2147483648#32 : BitVec 32).toInt = -2147483648 := by decide
  have hhi : (2147483647#32 : BitVec 32).toInt = 2147483647 := by decide
  have h1 : -2 ^ (32 - 1) ≤ x.toInt := BitVec.le_toInt x
  have h2 : x.toInt < 2 ^ (32 - 1) := BitVec.toInt_lt
  norm_num at h1 h2
  unfold IntOp.minsi IntOp.maxsi
  have e1 : ¬ x.slt 2147483648#32 = true := fun h => by
    have := BitVec.slt_iff_toInt_lt.mp h; omega
  rw [if_neg e1]
  have e2 : ¬ (2147483647#32 : BitVec 32).slt x = true := fun h => by
    have := BitVec.slt_iff_toInt_lt.mp h; omega
  rw [if_neg e2]

/-- jnp's "a negative index counts from the end" select leaves a bin alone: a bin is not negative. -/
theorem select_bin (a b : BitVec 32) :
    Scalar.select (IntOp.cmpi .slt (bin a b) 0#32) (IntOp.addi (bin a b) 65#32) (bin a b) = bin a b := by
  have h0 : (0#32 : BitVec 32).toInt = 0 := by decide
  have hb := (bin_bounds a b).1
  have e : (bin a b).slt 0#32 = false := by
    rw [BitVec.slt_eq_decide, h0]; exact decide_eq_false (by omega)
  show Scalar.select (BitVec.ofBool ((bin a b).slt 0#32)) _ _ = _
  rw [e]
  exact if_neg (by decide)

/-- The 0/1 lane "the bin is lane `k`", as the kernel makes it: compare, widen to 32 bits, convert to a float.
    At the exact reals it is 1 on the bin's own lane and 0 on every other lane below 128. -/
theorem onehot_lane (a b : BitVec 32) (k : Nat) (hk : k < 128) :
    (FloatOps.sitofp (F := Ideal) .f32 ((IntOp.cmpi .eq (bin a b) (BitVec.ofNat 32 k)).setWidth 32) : EReal)
      = if (bin a b).toNat = k then 1 else 0 := by
  have hkk : (BitVec.ofNat 32 k).toNat = k := by
    rw [BitVec.toNat_ofNat]; exact Nat.mod_eq_of_lt (by omega)
  by_cases h : (bin a b).toNat = k
  · rw [if_pos h]
    have e : bin a b = BitVec.ofNat 32 k := BitVec.toNat_inj.mp (h.trans hkk.symm)
    rw [e]
    show (((((BitVec.ofBool (BitVec.ofNat 32 k == BitVec.ofNat 32 k)).setWidth 32).toInt : ℝ)) : EReal) = 1
    rw [beq_self_eq_true]
    have : ((BitVec.ofBool true).setWidth 32).toInt = 1 := by decide
    rw [this]; norm_num
  · rw [if_neg h]
    have e : (bin a b == BitVec.ofNat 32 k) = false := by
      rw [beq_eq_false_iff_ne]
      intro he; exact h (by rw [he, hkk])
    show (((((BitVec.ofBool (bin a b == BitVec.ofNat 32 k)).setWidth 32).toInt : ℝ)) : EReal) = 0
    rw [e]
    have : ((BitVec.ofBool false).setWidth 32).toInt = 0 := by decide
    rw [this]; norm_num

end Cert.RelPos

end
-- ==== Proof.Spec.lean ====
/-
  The specification: the relative-position table.

  For residue indices `r` (one row of 768), a weight matrix `W` of shape `[128, 65]` and a bias `b` of length 128,
  the result has shape `[1, 768, 768, 128]` and entry `(0, i, j, c)` is `W[c, bin(r_i, r_j)] + b[c]`, where
  `bin(a, b) = clip(a − b, −32, 32) + 32` is a row number in `[0, 64]` (`Offset.lean`). Both programs compute this:
  the reference by gathering row `bin` of `Wᵀ` and adding `b`; the kernel by multiplying a 0/1 lane vector into a
  table that already holds `Wᵀ + b`.
-/
import proofs.«409507_j1279900254323_3_alg».proof.Proof.Offset
import Idealize.ShloMosaic.Lib.ValueIdx

noncomputable section

namespace Cert.RelPos

open Idealize.ShloMosaic Idealize.ShloMosaic.ValueIdx

/-- Entry `(0, i, j, c)` of the table. -/
def tableAt (ri : IVec ⟨2, ![1, 768]⟩ 32) (W : FVec Ideal ⟨2, ![128, 65]⟩ .f32) (b : FVec Ideal ⟨1, ![128]⟩ .f32)
    (i j : Fin 768) (c : Fin 128) : EReal :=
  W (ix2 c (binRow (ri (ix2 (0 : Fin 1) i)) (ri (ix2 (0 : Fin 1) j)))) + b (ix1 c)

/-- The whole table, index by index. -/
def table (ri : IVec ⟨2, ![1, 768]⟩ 32) (W : FVec Ideal ⟨2, ![128, 65]⟩ .f32) (b : FVec Ideal ⟨1, ![128]⟩ .f32) :
    FVec Ideal ⟨4, ![1, 768, 768, 128]⟩ .f32 :=
  fun y => tableAt ri W b ⟨(y 1).val, (y 1).isLt⟩ ⟨(y 2).val, (y 2).isLt⟩ ⟨(y 3).val, (y 3).isLt⟩

/-- An entry depends on its coordinates only through their values. -/
theorem tableAt_congr (ri : IVec ⟨2, ![1, 768]⟩ 32) (W : FVec Ideal ⟨2, ![128, 65]⟩ .f32) (b : FVec Ideal ⟨1, ![128]⟩ .f32)
    {i i' j j' : Fin 768} {c c' : Fin 128} (hi : i.val = i'.val) (hj : j.val = j'.val) (hc : c.val = c'.val) :
    tableAt ri W b i j c = tableAt ri W b i' j' c' := by
  rw [Fin.ext hi, Fin.ext hj, Fin.ext hc]

end Cert.RelPos

end
-- ==== Proof.LibGatherRows.lean ====
/-
  `stablehlo.gather` of ROWS of a rank-2 table, read at an index.

  What `table[d]` lowers to for a table `[N, C]` and an integer array `d` of rank three: `lax.gather` with
  offset_dims `[3]`, collapsed_slice_dims `[0]`, start_index_map `[0]`, slice_sizes `[1, C]` and
  index_vector_dim 3, over the indices as `[A, R, Q, 1]`. Result element `(a, r, q, c)` is the table at row
  `d[a, r, q, 0]` — read as a signed integer and clamped into `[0, N − 1]`, as StableHLO clamps every start
  index — and column `c`. The rank-1 case (`x[idx]` of a flat array) is the library's `gather_take_apply`; this
  is the same reading with one offset axis kept.
-/
import Idealize.ShloMosaic.Lib.ValueIdx

noncomputable section

namespace Idealize.ShloMosaic.GatherRows

open Idealize.ShloMosaic Idealize.ShloMosaic.ValueIdx

variable {α : Type}

/-- Those dimension numbers for a table `[N, C]`, start indices `[A, R, Q, 1]` and result `[A, R, Q, C]`; their
    conditions `wf` are decided on a program's literal shapes. -/
abbrev rowsDims (N C A R Q : Nat)
    (wf : GatherDims.WF ⟨2, ![N, C]⟩ ⟨4, ![A, R, Q, 1]⟩ ⟨4, ![A, R, Q, C]⟩ [3] [0] [] [0] [] 3 ![1, C]) :
    GatherDims ⟨2, ![N, C]⟩ ⟨4, ![A, R, Q, 1]⟩ ⟨4, ![A, R, Q, C]⟩ where
  offsetDims := [3]
  collapsedSliceDims := [0]
  operandBatchingDims := []
  startIndicesBatchingDims := []
  startIndexMap := [0]
  indexVectorDim := 3
  sliceSizes := ![1, C]
  wf := wf

/-- The start-indices index `[a, r, q, 0]` of result index `(a, r, q, c)`. -/
abbrev rowsIdx {A R Q C : Nat} (y : (⟨4, ![A, R, Q, C]⟩ : Shape).Idx) : (⟨4, ![A, R, Q, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- THE GATHER READ AT `(a, r, q, c)`: the table at the row the start index `d[a, r, q, 0]` names, read signed and
    clamped into `[0, N − 1]`, and at column `c`. -/
theorem gather_rows_apply {N C A R Q w : Nat} (hN : 0 < N)
    (wf : GatherDims.WF ⟨2, ![N, C]⟩ ⟨4, ![A, R, Q, 1]⟩ ⟨4, ![A, R, Q, C]⟩ [3] [0] [] [0] [] 3 ![1, C])
    (x : (⟨2, ![N, C]⟩ : Shape).Idx → α) (idx : IVec ⟨4, ![A, R, Q, 1]⟩ w) (y : (⟨4, ![A, R, Q, C]⟩ : Shape).Idx) :
    Host.gather (rowsDims N C A R Q wf) x idx y
      = x (ix2 ⟨min (idx (rowsIdx y)).toInt.toNat (N - 1), by omega⟩ ⟨(y 3).val, (y 3).isLt⟩) := by
  unfold Host.gather
  congr 1
  funext a
  refine Fin.ext ?_
  match a with
  | ⟨0, _⟩ =>
    show (rowsDims N C A R Q wf).start y idx 0 + (rowsDims N C A R Q wf).batchCoord y 0 + (rowsDims N C A R Q wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C A R Q wf).startIndexMap from List.mem_singleton.mpr rfl)]
    have hsi : (rowsDims N C A R Q wf).siIdx y ⟨List.idxOf (0 : Fin 2) (rowsDims N C A R Q wf).startIndexMap,
        List.idxOf_lt_length_iff.2 (List.mem_singleton.mpr rfl)⟩ = rowsIdx y := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (rowsDims N C A R Q wf).start y idx 1 + (rowsDims N C A R Q wf).batchCoord y 1 + (rowsDims N C A R Q wf).offCoord y 1 = (y 3).val
    rw [GatherDims.batchCoord_eq_zero _ _ _ List.not_mem_nil]
    unfold GatherDims.start
    have h10 : ¬ (1 : Fin 2) ∈ [(0 : Fin 2)] := by decide
    rw [dif_neg (show ¬ (1 : Fin 2) ∈ (rowsDims N C A R Q wf).startIndexMap from h10)]
    simp only [Nat.add_zero, Nat.zero_add]
    unfold GatherDims.offCoord
    rw [dif_pos ((GatherDims.mem_sKept _ _).mpr ⟨h10, List.not_mem_nil⟩ : (1 : Fin 2) ∈ (rowsDims N C A R Q wf).sKept)]
    rfl

end Idealize.ShloMosaic.GatherRows

end
-- ==== Proof.Reference.lean ====
/-
  The reference computes the table.

  Read one operation at a time: the two broadcasts of the residue indices and their difference give `r_i − r_j` at
  `(0, i, j)`; the clamp and the shift give the bin; the select that would wrap a negative index leaves a bin alone;
  the gather reads row `bin` of `Wᵀ` (its clamp of the start index to `[0, 64]` is the `min` in `binRow`); the
  transpose turns that into `W[c, bin]`; and the broadcast bias is added.
-/
import proofs.«409507_j1279900254323_3_alg».proof.Proof.Gen.ReferenceIdeal.Read
import proofs.«409507_j1279900254323_3_alg».proof.Proof.Spec
import proofs.«409507_j1279900254323_3_alg».proof.Proof.LibGatherRows

noncomputable section

namespace Cert.RelPos

open Idealize.ShloMosaic Idealize.ShloMosaic.ValueIdx Idealize.ShloMosaic.GatherRows
open Cert.ReferenceIdeal Cert.ReferenceIdeal.Gen Cert.ReferenceIdeal.Read

/-- The shifted clamp of the difference, at `(0, i, j)`, is the bin of `r_i` and `r_j`. -/
theorem ref_bin (x0 : IVec S1x768 32) (i j : Fin 768) :
    val_main_v7 (F := Ideal) x0 (ix3 (0 : Fin 1) i j) = bin (x0 (ix2 (0 : Fin 1) i)) (x0 (ix2 (0 : Fin 1) j)) := by
  have e1 : idx_main_v0 (idx_main_v2 (ix3 (0 : Fin 1) i j)) = ix2 (0 : Fin 1) i :=
    funext fun a => Fin.ext (by match a with | ⟨0, _⟩ => rfl | ⟨1, _⟩ => rfl)
  have e2 : idx_main_v1 (idx_main_v3 (ix3 (0 : Fin 1) i j)) = ix2 (0 : Fin 1) j :=
    funext fun a => Fin.ext (by match a with | ⟨0, _⟩ => rfl | ⟨1, _⟩ => rfl)
  rw [val_main_v7_apply, val_main_v5_apply, val_main_call0_v4_apply, val_main_call0_v3_apply, val_main_c_0_apply,
    val_main_call0_v2_apply, val_main_call0_v1_apply, val_main_call0_v0_apply, val_main_c_apply, val_main_v4_apply,
    val_main_v2_apply, val_main_v0_apply, val_main_v3_apply, val_main_v1_apply, val_main_v6_apply, val_main_c_1_apply,
    e1, e2]
  rfl

/-- The gather's start index at `(0, i, j)` is still the bin: the negative-index select does nothing. -/
theorem ref_start (x0 : IVec S1x768 32) (i j : Fin 768) :
    val_main_v13 (F := Ideal) x0 (ix3 (0 : Fin 1) i j) = bin (x0 (ix2 (0 : Fin 1) i)) (x0 (ix2 (0 : Fin 1) j)) := by
  rw [val_main_v13_apply, val_main_v10_apply, val_main_v12_apply, ref_bin, val_main_v9_apply, val_main_c_2_apply,
    val_main_v11_apply, val_main_c_3_apply]
  exact select_bin _ _

/-- This program's gather, read at an index (`LibGatherRows.lean`). -/
theorem ref_gather (x : S65x128.Idx → EReal) (idx : IVec S1x768x768x1 32) (y : S1x768x768x128.Idx) :
    Host.gather gather_S65x128_S1x768x768x1_S1x768x768x128_3_0_n_n_0_3_1128 x idx y
      = x (ix2 (⟨min (idx (rowsIdx y)).toInt.toNat 64, by omega⟩ : Fin 65) (⟨(y 3).val, (y 3).isLt⟩ : Fin 128)) := by
  have hd : gather_S65x128_S1x768x768x1_S1x768x768x128_3_0_n_n_0_3_1128
      = rowsDims 65 128 1 768 768 gather_S65x128_S1x768x768x1_S1x768x768x128_3_0_n_n_0_3_1128_wf := rfl
  rw [hd]
  exact gather_rows_apply (N := 65) (C := 128) (A := 1) (R := 768) (Q := 768) (by decide)
    gather_S65x128_S1x768x768x1_S1x768x768x128_3_0_n_n_0_3_1128_wf x idx y

/-- The gathered row at `(0, i, j, c)`: `W[c, bin(r_i, r_j)]`. -/
theorem ref_row (x0 : IVec S1x768 32) (x1 : FVec Ideal S128x65 .f32) (y : S1x768x768x128.Idx) :
    val_main_v15 (F := Ideal) x0 x1 y
      = x1 (ix2 (⟨(y 3).val, (y 3).isLt⟩ : Fin 128)
          (binRow (x0 (ix2 (0 : Fin 1) (⟨(y 1).val, (y 1).isLt⟩ : Fin 768))) (x0 (ix2 (0 : Fin 1) (⟨(y 2).val, (y 2).isLt⟩ : Fin 768))))) := by
  have e14 : idx_main_v14 (rowsIdx y) = ix3 (0 : Fin 1) (⟨(y 1).val, (y 1).isLt⟩ : Fin 768) (⟨(y 2).val, (y 2).isLt⟩ : Fin 768) :=
    funext fun a => Fin.ext (by match a with | ⟨0, _⟩ => rfl | ⟨1, _⟩ => rfl | ⟨2, _⟩ => rfl)
  have hs : val_main_v14 (F := Ideal) x0 (rowsIdx y)
      = bin (x0 (ix2 (0 : Fin 1) (⟨(y 1).val, (y 1).isLt⟩ : Fin 768))) (x0 (ix2 (0 : Fin 1) (⟨(y 2).val, (y 2).isLt⟩ : Fin 768))) := by
    rw [val_main_v14_apply, e14]
    exact ref_start x0 _ _
  unfold val_main_v15
  refine (ref_gather _ _ y).trans ?_
  refine (val_main_v8_apply (F := Ideal) x1 _).trans ?_
  refine congrArg x1 (funext fun a => Fin.ext ?_)
  match a with
  | ⟨0, _⟩ => rfl
  | ⟨1, _⟩ =>
    show min (val_main_v14 (F := Ideal) x0 (rowsIdx y)).toInt.toNat 64 = (binRow _ _).val
    rw [hs]
    rfl

/-- The broadcast bias at `(0, i, j, c)`: `b[c]`. -/
theorem ref_bias (x2 : FVec Ideal S128 .f32) (y : S1x768x768x128.Idx) :
    val_main_v17 (F := Ideal) x2 y = x2 (ix1 (⟨(y 3).val, (y 3).isLt⟩ : Fin 128)) := by
  have e17 : idx_main_v16 (idx_main_v17 y) = ix1 (⟨(y 3).val, (y 3).isLt⟩ : Fin 128) :=
    funext fun a => Fin.ext (by match a with | ⟨0, _⟩ => rfl)
  rw [val_main_v17_apply, val_main_v16_apply, e17]

/-- THE REFERENCE'S RESULT is the table of its three arguments. -/
theorem reference_eq (x0 : IVec S1x768 32) (x1 : FVec Ideal S128x65 .f32) (x2 : FVec Ideal S128 .f32) :
    val_main_v18 (F := Ideal) x0 x1 x2 = table x0 x1 x2 := by
  funext y
  show val_main_v15 (F := Ideal) x0 x1 y + val_main_v17 (F := Ideal) x2 y = tableAt x0 x1 x2 _ _ _
  rw [ref_row, ref_bias]
  rfl

end Cert.RelPos

end
-- ==== Proof.Tile.lean ====
/-
  One tile of the kernel, read at an element.

  At a grid point the body loads a column of 128 residue indices (the tile's rows), a row of 128 (its columns) and
  two 128×128 tables, and stores a block `[1, 128, 128, 128]`. Element `(0, p, q, c)` of that block is computed in
  three steps: the bin `clip(row p − col q, −32, 32) + 32` of the pair (`Offset.lean`); the 0/1 lane vector
  "bin = lane" of length 128, laid out as row `128·p + q` of a `[16384, 128]` matrix; and the sum of the two
  products of that matrix with the tables. A 0/1 row with a single 1 picks one entry out of a column, so the
  element is the first table's entry at (bin, c) plus the second's. No arithmetic on the table entries beyond that
  one sum is involved: `0 · x = 0` and `1 · x = x` hold for every extended real.
-/
import proofs.«409507_j1279900254323_3_alg».proof.Proof.Gen.KernelIdeal.Skeleton
import proofs.«409507_j1279900254323_3_alg».proof.Proof.Offset
import Idealize.ShloMosaic.Lib.ValueIdx
import Idealize.ShloMosaic.Lib.Pipeline.Value
import Idealize.ShloMosaic.PureOps.Ideal.Laws

noncomputable section

open scoped BigOperators

namespace Cert.RelPos

open Idealize.ShloMosaic Idealize.ShloMosaic.ValueIdx
open Cert.KernelIdeal Cert.KernelIdeal.Gen

/-! ## The bins of a tile -/

/-- The tile's 128×128 bins from its row and column indices, as the body computes them: both broadcast to the
    tile, subtracted, clamped, shifted. -/
def tileBins (x0 : IVec S128x1 32) (x1 : IVec S1x128 32) : IVec S128x128 32 :=
  addi (minsi (broadcast S128x128 32#32) (maxsi (broadcast S128x128 4294967264#32)
    (subi (broadcastTo S128x128 (shapeCast S128x1 x0 shapeCasts_S128x1_S128x1) broadcasts_S128x1_S128x128)
      (broadcastTo S128x128 (shapeCast S1x128 x1 shapeCasts_S1x128_S1x128) broadcasts_S1x128_S128x128))))
    (broadcast S128x128 32#32)

/-- Entry `(p, q)` is the bin of row index `p` and column index `q`. -/
theorem tileBins_apply (x0 : IVec S128x1 32) (x1 : IVec S1x128 32) (p q : Fin 128) :
    tileBins x0 x1 (ix2 p q) = bin (x0 (ix2 p (0 : Fin 1))) (x1 (ix2 (0 : Fin 1) q)) := by
  unfold tileBins
  show IntOp.addi (IntOp.minsi 32#32 (IntOp.maxsi 4294967264#32 (IntOp.subi
      (broadcastTo S128x128 (shapeCast S128x1 x0 shapeCasts_S128x1_S128x1) broadcasts_S128x1_S128x128 (ix2 p q))
      (broadcastTo S128x128 (shapeCast S1x128 x1 shapeCasts_S1x128_S1x128) broadcasts_S1x128_S128x128 (ix2 p q))))) 32#32 = _
  rw [broadcastTo_apply _ broadcasts_S128x1_S128x128 (ix2 p q) (ix2 p (0 : Fin 1)) (fun a => match a with
      | ⟨0, _⟩ => by show p.val = if (128 : Nat) = 1 then 0 else p.val; rw [if_neg (by decide)]
      | ⟨1, _⟩ => by show 0 = if (1 : Nat) = 1 then 0 else q.val; rw [if_pos rfl]),
    broadcastTo_apply _ broadcasts_S1x128_S128x128 (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)]),
    shapeCast_self, shapeCast_self]
  rfl

/-! ## The 0/1 lane matrix -/

/-- The `[16384, 128]` matrix whose row `128·p + q` is the lane vector "bin (p, q) = lane": compare with the lane
    numbers, widen, convert, narrow the format, flatten the two tile axes. -/
def tileLanes (dm : IVec S128x128 32) : FVec Ideal S16384x128 .bf16 :=
  shapeCast S16384x128 (truncf .bf16 (sitofp .f32 (extui 32 (cmpi .eq
    (broadcastTo S128x128x128 (shapeCast S128x128x1 dm shapeCasts_S128x128_S128x128x1) broadcasts_S128x128x1_S128x128x128)
    (iota .tc S128x128x128 32 [2] iota_S128x128x128_d2_w32)) natLt_1_32)) bitsLt_bf16_f32) shapeCasts_S128x128x128_S16384x128

/-- Row `128·p + q`, lane `k`: the comparison of bin `(p, q)` with `k`, as a float. -/
theorem tileLanes_apply (dm : IVec S128x128 32) (p q k : Fin 128) (r : Fin 16384) (hr : r.val = p.val * 128 + q.val) :
    tileLanes dm (ix2 r k)
      = FloatOps.sitofp (F := Ideal) .f32 ((IntOp.cmpi .eq (dm (ix2 p q)) (BitVec.ofNat 32 k.val)).setWidth 32) := by
  unfold tileLanes
  rw [shapeCast_apply _ shapeCasts_S128x128x128_S16384x128 (ix2 r k) (ix3 p q k) (by
    rw [Shape.rowMajor_val_three, Shape.rowMajor_val_two]
    show (p.val * 128 + q.val) * 128 + k.val = r.val * 128 + k.val
    rw [hr])]
  show FloatOps.sitofp (F := Ideal) .f32 ((IntOp.cmpi .eq
    (broadcastTo S128x128x128 (shapeCast S128x128x1 dm shapeCasts_S128x128_S128x128x1) broadcasts_S128x128x1_S128x128x128 (ix3 p q k))
    (iota .tc S128x128x128 32 [2] iota_S128x128x128_d2_w32 (ix3 p q k))).setWidth 32) = _
  rw [broadcastTo_apply _ broadcasts_S128x128x1_S128x128x128 (ix3 p q k) (ix3 p q (0 : Fin 1)) (fun a => match a with
      | ⟨0, _⟩ => by show p.val = if (128 : Nat) = 1 then 0 else p.val; rw [if_neg (by decide)]
      | ⟨1, _⟩ => by show q.val = if (128 : Nat) = 1 then 0 else q.val; rw [if_neg (by decide)]
      | ⟨2, _⟩ => by show 0 = if (1 : Nat) = 1 then 0 else k.val; rw [if_pos rfl]),
    shapeCast_apply _ shapeCasts_S128x128_S128x128x1 (ix3 p q (0 : Fin 1)) (ix2 p q) (by
      rw [Shape.rowMajor_val_three, Shape.rowMajor_val_two]
      show p.val * 128 + q.val = (p.val * 128 + q.val) * 1 + 0
      omega),
    iota_single_apply]

/-! ## A product with a table, read at an element -/

theorem lhs_lanes_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl
theorem lhs_lanes_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_table_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_table_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The matrix product into a zero accumulator at `(r, c)`: the sum over the 128 lanes of row `r` of the left
    factor times column `c` of the table. -/
theorem product_apply (lhs : FVec Ideal S16384x128 .bf16) (rhs : FVec Ideal S128x128 .bf16) (r : Fin 16384) (c : Fin 128) :
    matmul dot_S16384x128_S128x128_S16384x128_1_0_0_1_n_n none lhs rhs (constant S16384x128 .f32 0x00000000#32) (ix2 r c)
      = ∑ k : Fin 128, lhs (ix2 r k) * rhs (ix2 k c) := by
  simp only [matmul]
  rw [Ideal.matmul_constant_zero_apply,
    ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r c)
      ((contrEquiv1 dot_S16384x128_S128x128_S16384x128_1_0_0_1_n_n 128 rfl rfl).symm k) = ix2 r k :=
    funext fun a => Fin.ext (by
      match a with
      | ⟨0, _⟩ => exact lhs_lanes_0 _ _
      | ⟨1, _⟩ => exact (lhs_lanes_1 _ _).trans hk)
  have er : dot_S16384x128_S128x128_S16384x128_1_0_0_1_n_n.rhsIdx (ix2 r c)
      ((contrEquiv1 dot_S16384x128_S128x128_S16384x128_1_0_0_1_n_n 128 rfl rfl).symm k) = ix2 k c :=
    funext fun a => Fin.ext (by
      match a with
      | ⟨0, _⟩ => exact (rhs_table_0 _ _).trans hk
      | ⟨1, _⟩ => exact rhs_table_1 _ _)
  rw [el, er]

/-- A 0/1 lane vector with its single 1 at lane `n` picks entry `n` out of a column. -/
theorem sum_single_lane (n : Fin 128) (f : Fin 128 → EReal) :
    ∑ k : Fin 128, (if n.val = k.val then (1 : EReal) else 0) * f k = f n := by
  rw [Finset.sum_eq_single n]
  · rw [if_pos rfl, one_mul]
  · intro k _ hk
    rw [if_neg (fun h => hk (Fin.ext h.symm)), zero_mul]
  · intro h; exact absurd (Finset.mem_univ _) h

/-- The lane of a bin: it is at most 64. -/
def binLane (a b : BitVec 32) : Fin 128 := ⟨(bin a b).toNat, by have := bin_toNat_le a b; omega⟩

/-- The lane matrix times a table at `(128·p + q, c)`: the table's entry at the bin's lane. -/
theorem lanes_product_apply (dm : IVec S128x128 32) (tab : FVec Ideal S128x128 .bf16) (a b : BitVec 32)
    (p q c : Fin 128) (r : Fin 16384) (hr : r.val = p.val * 128 + q.val) (hd : dm (ix2 p q) = bin a b) :
    matmul dot_S16384x128_S128x128_S16384x128_1_0_0_1_n_n none (tileLanes dm) tab (constant S16384x128 .f32 0x00000000#32) (ix2 r c)
      = tab (ix2 (binLane a b) c) := by
  rw [product_apply]
  have e : ∀ k : Fin 128, tileLanes dm (ix2 r k) = if (binLane a b).val = k.val then (1 : EReal) else 0 := fun k => by
    rw [tileLanes_apply dm p q k r hr, hd]
    exact onehot_lane a b k.val k.isLt
  rw [Finset.sum_congr rfl fun k _ => by rw [e k]]
  exact sum_single_lane (binLane a b) fun k => tab (ix2 k c)

/-! ## The stored block -/

/-- The body's stored value is the two products, added and viewed as the block. -/
theorem payload_eq (x0 : Vec Ideal S128x1 .i32) (x1 : Vec Ideal S1x128 .i32) (x2 x3 : Vec Ideal S128x128 .bf16) :
    k0_pay1 (F := Ideal) x0 x1 x2 x3 = shapeCast S1x128x128x128 (addf
      (matmul dot_S16384x128_S128x128_S16384x128_1_0_0_1_n_n none (tileLanes (tileBins x0 x1)) (shapeCast S128x128 x2 shapeCasts_S128x128_S128x128 : FVec Ideal S128x128 .bf16) (constant S16384x128 .f32 0x00000000#32))
      (matmul dot_S16384x128_S128x128_S16384x128_1_0_0_1_n_n none (tileLanes (tileBins x0 x1)) (shapeCast S128x128 x3 shapeCasts_S128x128_S128x128 : FVec Ideal S128x128 .bf16) (constant S16384x128 .f32 0x00000000#32)))
      shapeCasts_S16384x128_S1x128x128x128 := rfl

/-- ELEMENT `(0, p, q, c)` OF THE STORED BLOCK: the first table at (bin, c) plus the second table there. -/
theorem payload_apply (x0 : Vec Ideal S128x1 .i32) (x1 : Vec Ideal S1x128 .i32) (x2 x3 : Vec Ideal S128x128 .bf16)
    (p q c : Fin 128) :
    k0_pay1 (F := Ideal) x0 x1 x2 x3 (ix4 (0 : Fin 1) p q c)
      = x2 (ix2 (binLane (x0 (ix2 p (0 : Fin 1))) (x1 (ix2 (0 : Fin 1) q))) c)
        + x3 (ix2 (binLane (x0 (ix2 p (0 : Fin 1))) (x1 (ix2 (0 : Fin 1) q))) c) := by
  rw [payload_eq]
  have hr : (⟨p.val * 128 + q.val, by have := p.isLt; have := q.isLt; omega⟩ : Fin 16384).val = p.val * 128 + q.val := rfl
  rw [shapeCast_apply _ shapeCasts_S16384x128_S1x128x128x128 (ix4 (0 : Fin 1) p q c)
    (ix2 (⟨p.val * 128 + q.val, by have := p.isLt; have := q.isLt; omega⟩ : Fin 16384) c) (by
      rw [Shape.rowMajor_val_two, Shape.rowMajor_val_four]
      show (p.val * 128 + q.val) * 128 + c.val = ((0 * 128 + p.val) * 128 + q.val) * 128 + c.val
      omega)]
  rw [addf_apply,
    lanes_product_apply (tileBins x0 x1) _ _ _ p q c _ hr (tileBins_apply x0 x1 p q),
    lanes_product_apply (tileBins x0 x1) _ _ _ p q c _ hr (tileBins_apply x0 x1 p q),
    shapeCast_self, shapeCast_self]

end Cert.RelPos

end
-- ==== Proof.Tables.lean ====
/-
  What the kernel's four input arrays hold when the region is entered, read at an element.

  The host operations before the call build them from the arguments. The row and the column operand are the residue
  indices, first clamped to the 32-bit signed range (the identity on 32-bit words) and then reshaped to `[768, 1]`
  and `[1, 768]`: entry `r` of either is `r_r`. The first table is `Wᵀ + b` padded with zero rows from 65 to 128
  rows and narrowed to bf16 — the identity on extended reals — so at a row `k < 65` it holds `W[c, k] + b[c]`. The
  second table is the first one's rounding error, `T − widen(narrow(T))`: at the exact reals `T − T`, which is zero
  wherever `T` is a real number, that is wherever `W` and `b` are finite.
-/
import proofs.«409507_j1279900254323_3_alg».proof.Proof.Gen.KernelIdeal.Frame
import proofs.«409507_j1279900254323_3_alg».proof.Proof.Offset
import proofs.«409507_j1279900254323_3_alg».proof.Proof.LibFinite
import Idealize.ShloMosaic.Lib.StableHlo.Run
import Idealize.ShloMosaic.Lib.KernelVsHost
import Idealize.ShloMosaic.Lib.Pipeline.Value
import Idealize.ShloMosaic.Lib.ValueIdx
import Idealize.ShloMosaic.PureOps.Ideal

noncomputable section

namespace Cert.RelPos

open Idealize.ShloMosaic Idealize.ShloMosaic.TcCoe Idealize.SL.Sem Idealize.ShloMosaic.StableHlo
open Idealize.ShloMosaic.ValueIdx
open Cert.KernelIdeal Cert.KernelIdeal.Gen Cert.Fin

variable (m : (ℓ : Loc nD τ sig) → Buf (Elt Ideal) ℓ)

/-- The three arguments as launched on core `c`: residue indices, weights, bias. -/
abbrev argR (c : Dev nD) : IVec S1x768 32 := m ((c : Thread nD τ).loc main_arg0)
abbrev argW (c : Dev nD) : FVec Ideal S128x65 .f32 := m ((c : Thread nD τ).loc main_arg1)
abbrev argB (c : Dev nD) : FVec Ideal S128 .f32 := m ((c : Thread nD τ).loc main_arg2)

/-! ## The residue indices, as a column and as a row -/

/-- The residue indices clamped to the signed 32-bit range. -/
def clamped (r : IVec S1x768 32) : IVec S1x768 32 :=
  minsi (broadcastInDim S1x768 ![] bcast_S_S1x768 (id (constantI S_ 32 2147483647#32)))
    (maxsi (broadcastInDim S1x768 ![] bcast_S_S1x768 (id (constantI S_ 32 2147483648#32))) r)

theorem clamped_apply (r : IVec S1x768 32) (i : S1x768.Idx) : clamped r i = r i :=
  clamp_full (r i)

theorem rows_eq (c : Dev nD) : (V m c main_v2 : S768x1.Idx → BitVec 32)
    = shapeCast S768x1 (shapeCast S768 (clamped (argR m c)) shapeCasts_S1x768_S768) shapeCasts_S768_S768x1 := by
  dsimp only [V]
  simp only [hostOps0, hostOps0_1, hostOps0_2, hostOps0_3, hostOps0_4, List.flatten_cons, List.flatten_nil, List.append_nil,
    List.cons_append, List.nil_append]
  after_results
  rfl

theorem cols_eq (c : Dev nD) : (V m c main_v3 : S1x768.Idx → BitVec 32)
    = shapeCast S1x768 (shapeCast S768 (clamped (argR m c)) shapeCasts_S1x768_S768) shapeCasts_S768_S1x768 := by
  dsimp only [V]
  simp only [hostOps0, hostOps0_1, hostOps0_2, hostOps0_3, hostOps0_4, List.flatten_cons, List.flatten_nil, List.append_nil,
    List.cons_append, List.nil_append]
  after_results
  rfl

/-- Entry `r` of the flattened indices. -/
theorem flat_apply (x : IVec S1x768 32) (r : Fin 768) :
    shapeCast S768 x shapeCasts_S1x768_S768 (ix1 r) = x (ix2 (0 : Fin 1) r) :=
  shapeCast_apply _ shapeCasts_S1x768_S768 (ix1 r) (ix2 (0 : Fin 1) r) (by
    rw [Shape.rowMajor_val_two, Shape.rowMajor_val_one]
    show 0 * 768 + r.val = r.val
    omega)

/-- Row `r` of the column operand is residue index `r`. -/
theorem rows_apply (c : Dev nD) (r : Fin 768) :
    (V m c main_v2 : S768x1.Idx → BitVec 32) (ix2 r (0 : Fin 1)) = argR m c (ix2 (0 : Fin 1) r) := by
  rw [rows_eq, shapeCast_apply _ shapeCasts_S768_S768x1 (ix2 r (0 : Fin 1)) (ix1 r) (by
    rw [Shape.rowMajor_val_two, Shape.rowMajor_val_one]
    show r.val = r.val * 1 + 0
    omega), flat_apply, clamped_apply]

/-- Column `r` of the row operand is residue index `r`. -/
theorem cols_apply (c : Dev nD) (r : Fin 768) :
    (V m c main_v3 : S1x768.Idx → BitVec 32) (ix2 (0 : Fin 1) r) = argR m c (ix2 (0 : Fin 1) r) := by
  rw [cols_eq, shapeCast_apply _ shapeCasts_S768_S1x768 (ix2 (0 : Fin 1) r) (ix1 r) (by
    rw [Shape.rowMajor_val_two, Shape.rowMajor_val_one]
    show r.val = 0 * 768 + r.val
    omega), flat_apply, clamped_apply]

/-! ## The two tables -/

/-- `Wᵀ + b` with 63 zero rows appended. -/
def padded (W : FVec Ideal S128x65 .f32) (b : FVec Ideal S128 .f32) : FVec Ideal S128x128 .f32 :=
  pad S128x128 ![0, 0] ![63, 0] ![0, 0]
    (addf (transpose S65x128 [1, 0] W transposes_S128x65_S65x128_1_0)
      (broadcastInDim S65x128 ![0, 1] bcast_S1x128_S65x128_0_1 (broadcastInDim S1x128 ![1] bcast_S128_S1x128_1 b)))
    (sitofp .f32 (constantI S_ 32 0#32) : FVec Ideal S_ .f32) pads_S65x128_S128x128_0630_000 h_S_

/-- At a row below 65 the padded table holds `W[c, k] + b[c]`. -/
theorem padded_apply (W : FVec Ideal S128x65 .f32) (b : FVec Ideal S128 .f32) (k : Fin 128) (hk : k.val < 65) (j : Fin 128) :
    padded W b (ix2 k j) = W (ix2 j (⟨k.val, hk⟩ : Fin 65)) + b (ix1 j) := by
  unfold padded
  rw [pad_apply_of_inside _ _ _ _ _ pads_S65x128_S128x128_0630_000 h_S_ (ix2 k j) (ix2 (⟨k.val, hk⟩ : Fin 65) j) (fun a => match a with
      | ⟨0, _⟩ => by show k.val = 0 + k.val * (0 + 1); omega
      | ⟨1, _⟩ => by show j.val = 0 + j.val * (0 + 1); omega),
    addf_apply,
    transpose_apply [1, 0] W transposes_S128x65_S65x128_1_0 (ix2 (⟨k.val, hk⟩ : Fin 65) j) (ix2 j (⟨k.val, hk⟩ : Fin 65)) (fun a => match a with
      | ⟨0, _⟩ => rfl
      | ⟨1, _⟩ => rfl),
    broadcastInDim_apply _ bcast_S1x128_S65x128_0_1 _ (ix2 (⟨k.val, hk⟩ : Fin 65) j) (ix2 (0 : Fin 1) j) (fun a => match a with
      | ⟨0, _⟩ => by show 0 = if (1 : Nat) = 1 then 0 else k.val; rw [if_pos rfl]
      | ⟨1, _⟩ => by show j.val = if (128 : Nat) = 1 then 0 else j.val; rw [if_neg (by decide)]),
    broadcastInDim_apply _ bcast_S128_S1x128_1 b (ix2 (0 : Fin 1) j) (ix1 j) (fun a => match a with
      | ⟨0, _⟩ => by show j.val = if (128 : Nat) = 1 then 0 else j.val; rw [if_neg (by decide)])]

theorem hi_eq (c : Dev nD) : (V m c main_v9 : S128x128.Idx → EReal)
    = truncf .bf16 (padded (argW m c) (argB m c)) bitsLt_bf16_f32 := by
  dsimp only [V]
  simp only [hostOps0, hostOps0_1, hostOps0_2, hostOps0_3, hostOps0_4, List.flatten_cons, List.flatten_nil, List.append_nil,
    List.cons_append, List.nil_append]
  after_results
  rfl

theorem lo_eq (c : Dev nD) : (V m c main_v12 : S128x128.Idx → EReal)
    = truncf .bf16 (subf (padded (argW m c) (argB m c))
        (extf .f32 (truncf .bf16 (padded (argW m c) (argB m c)) bitsLt_bf16_f32) bitsLt_bf16_f32)) bitsLt_bf16_f32 := by
  dsimp only [V]
  simp only [hostOps0, hostOps0_1, hostOps0_2, hostOps0_3, hostOps0_4, List.flatten_cons, List.flatten_nil, List.append_nil,
    List.cons_append, List.nil_append]
  after_results
  rfl

/-- The first table at a row below 65: `W[c, k] + b[c]`. -/
theorem hi_apply (c : Dev nD) (k : Fin 128) (hk : k.val < 65) (j : Fin 128) :
    (V m c main_v9 : S128x128.Idx → EReal) (ix2 k j) = argW m c (ix2 j (⟨k.val, hk⟩ : Fin 65)) + argB m c (ix1 j) := by
  rw [hi_eq]
  exact padded_apply _ _ k hk j

/-- A real number minus itself is zero. -/
theorem sub_self_of_isFin {x : EReal} (h : IsFin x) : x - x = 0 := by
  obtain ⟨r, rfl⟩ := h
  rw [← EReal.coe_sub, sub_self, EReal.coe_zero]

/-- The second table at a row below 65 is zero where the weights and the bias are real numbers. -/
theorem lo_apply (c : Dev nD) (k : Fin 128) (hk : k.val < 65) (j : Fin 128)
    (hW : AllFin (argW m c)) (hB : AllFin (argB m c)) :
    (V m c main_v12 : S128x128.Idx → EReal) (ix2 k j) = (0 : EReal) := by
  rw [lo_eq]
  show padded (argW m c) (argB m c) (ix2 k j) - padded (argW m c) (argB m c) (ix2 k j) = 0
  rw [padded_apply _ _ k hk j]
  exact sub_self_of_isFin ((hW _).add (hB _))

end Cert.RelPos

end
-- ==== Proof.Blocks.lean ====
/-
  From the tiles to the whole array.

  The grid has 6 × 6 points; point `(I, J)` loads rows `128·I … 128·I + 127` of the column operand, columns
  `128·J … 128·J + 127` of the row operand and both tables whole, and writes back block `(0, I, J, 0)` of the output.
  Element `(0, p, q, c)` of what it writes is the first table at (bin, c) plus the second there (`Tile.lean`), with the
  bin that of residue indices `128·I + p` and `128·J + q`; the first table there is `W[c, bin] + b[c]` and the second
  is zero (`Tables.lean`): entry `(0, 128·I + p, 128·J + q, c)` of the table. The 36 blocks tile the array, so after
  the run the output array is the table.
-/
import proofs.«409507_j1279900254323_3_alg».proof.Proof.Gen.KernelIdeal.Value
import proofs.«409507_j1279900254323_3_alg».proof.Proof.Tile
import proofs.«409507_j1279900254323_3_alg».proof.Proof.Tables
import proofs.«409507_j1279900254323_3_alg».proof.Proof.Spec
import proofs.«409507_j1279900254323_3_alg».proof.Proof.LibFinite

set_option maxRecDepth 16384

noncomputable section

namespace Cert.RelPos

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Fin

variable (m : (ℓ : Loc nD τ sig) → Buf (Elt Ideal) ℓ) (ρ : Dev nD → PrngReg)

theorem off2 : (![0, 0] : Fin 2 → Nat) = fun _ => 0 := funext fun a => by fin_cases a <;> rfl
theorem off4 : (![0, 0, 0, 0] : Fin 4 → Nat) = fun _ => 0 := funext fun a => by fin_cases a <;> rfl

/-- The printed index maps, decided over the 36 points: the column operand moves with the output's second axis, the
    row operand with its third, the tables stay, and the output's block indices are `(0, I, J, 0)` with `I, J ≤ 5`. -/
theorem index_facts : ∀ t : Fin cfg0.N,
    win0_0.index t (0 : Fin 2) = win0_4.index t (1 : Fin 4) ∧ win0_0.index t (1 : Fin 2) = 0
    ∧ win0_1.index t (0 : Fin 2) = 0 ∧ win0_1.index t (1 : Fin 2) = win0_4.index t (2 : Fin 4)
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = 0 ∧ win0_4.index t (1 : Fin 4) ≤ 5
    ∧ win0_4.index t (2 : Fin 4) ≤ 5 ∧ win0_4.index t (3 : Fin 4) = 0 :=
  (by decide +kernel : ∀ t : Fin grid0.N, _)

/-- Every block `(0, I, J, 0)` is some point's. -/
theorem index_onto : ∀ (q1 q2 : Fin 6), ∃ t : Fin cfg0.N, win0_4.index t = ![0, q1.val, q2.val, 0] :=
  (by decide +kernel : ∀ (q1 q2 : Fin 6), ∃ t : Fin grid0.N, win0_4.index t = ![0, q1.val, q2.val, 0])

/-! ## The loaded blocks, read at an element -/

/-- Row `p` of the column block at point `t` is residue index `128·I + p`. -/
theorem rowBlock_apply (c : Dev nD) (t : Fin cfg0.N) (p : Fin 128) (r : Fin 768)
    (hr : r.val = win0_4.index t (1 : Fin 4) * 128 + p.val) :
    iblk m c 0 t (ix2 p (0 : Fin 1)) = argR m c (ix2 (0 : Fin 1) r) := by
  obtain ⟨e00, e01, -⟩ := index_facts t
  show V m c main_v2 (((cfg0.win 0).blk t).view.emb (ix2 p (0 : Fin 1))) = _
  have h : ((cfg0.win 0).blk t).view.emb (ix2 p (0 : Fin 1)) = ix2 r (0 : Fin 1) := by
    funext a; apply Fin.ext
    match a with
    | ⟨0, _⟩ => show win0_0.index t (0 : Fin 2) * 128 + 1 * p.val = r.val; omega
    | ⟨1, _⟩ => show win0_0.index t (1 : Fin 2) * 1 + 1 * 0 = 0; omega
  rw [h]
  exact rows_apply m c r

/-- Column `q` of the row block at point `t` is residue index `128·J + q`. -/
theorem colBlock_apply (c : Dev nD) (t : Fin cfg0.N) (q : Fin 128) (s : Fin 768)
    (hs : s.val = win0_4.index t (2 : Fin 4) * 128 + q.val) :
    iblk m c 1 t (ix2 (0 : Fin 1) q) = argR m c (ix2 (0 : Fin 1) s) := by
  obtain ⟨-, -, e10, e11, -⟩ := index_facts t
  show V m c main_v3 (((cfg0.win 1).blk t).view.emb (ix2 (0 : Fin 1) q)) = _
  have h : ((cfg0.win 1).blk t).view.emb (ix2 (0 : Fin 1) q) = ix2 (0 : Fin 1) s := by
    funext a; apply Fin.ext
    match a with
    | ⟨0, _⟩ => show win0_1.index t (0 : Fin 2) * 1 + 1 * 0 = 0; omega
    | ⟨1, _⟩ => show win0_1.index t (1 : Fin 2) * 128 + 1 * q.val = s.val; omega
  rw [h]
  exact cols_apply m c s

/-- The first table's block is the whole table. -/
theorem hiBlock_apply (c : Dev nD) (t : Fin cfg0.N) (k : Fin 128) (hk : k.val < 65) (j : Fin 128) :
    iblk m c 2 t (ix2 k j) = argW m c (ix2 j (⟨k.val, hk⟩ : Fin 65)) + argB m c (ix1 j) := by
  obtain ⟨-, -, -, -, e20, e21, -⟩ := index_facts t
  show V m c main_v9 (((cfg0.win 2).blk t).view.emb (ix2 k j)) = _
  have h : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  rw [h]
  exact hi_apply m c k hk j

/-- The second table's block is the whole table: zero at a row below 65, for finite weights and bias. -/
theorem loBlock_apply (c : Dev nD) (t : Fin cfg0.N) (k : Fin 128) (hk : k.val < 65) (j : Fin 128)
    (hW : AllFin (argW m c)) (hB : AllFin (argB m c)) :
    iblk m c 3 t (ix2 k j) = (0 : EReal) := by
  obtain ⟨-, -, -, -, -, -, e30, e31, -⟩ := index_facts t
  show V m c main_v12 (((cfg0.win 3).blk t).view.emb (ix2 k j)) = _
  have h : ((cfg0.win 3).blk t).view.emb (ix2 k j) = ix2 k j := by
    funext a; apply Fin.ext
    match a with
    | ⟨0, _⟩ => show win0_3.index t (0 : Fin 2) * 128 + 1 * k.val = k.val; omega
    | ⟨1, _⟩ => show win0_3.index t (1 : Fin 2) * 128 + 1 * j.val = j.val; omega
  rw [h]
  exact lo_apply m c k hk j hW hB

/-! ## What a point writes back -/

/-- WHAT POINT `t` WRITES BACK is block `t` of the table of the arguments. -/
theorem flushed_eq (c : Dev nD) (t : Fin cfg0.N) (hW : AllFin (argW m c)) (hB : AllFin (argB m c)) :
    (dats m 0 c).flushed 4 t
      = ((cfg0.win 4).blk t).view.read (Elt Ideal) (table (argR m c) (argW m c) (argB m c)) := by
  rw [flushed4]
  unfold out0_4
  rw [View.canon_unit_zero off4]
  simp only [View.ld_unit_zero (S := S128x1) off2, View.ld_unit_zero (S := S1x128) off2, View.ld_unit_zero (S := S128x128) off2]
  funext y
  obtain ⟨-, -, -, -, -, -, -, -, e40, e41, e42, e43⟩ := index_facts t
  have hy0 : (y 0).val < 1 := (y 0).isLt
  have hy1 : (y 1).val < 128 := (y 1).isLt
  have hy2 : (y 2).val < 128 := (y 2).isLt
  have hy3 : (y 3).val < 128 := (y 3).isLt
  obtain ⟨p, hp⟩ : ∃ p : Fin 128, p.val = (y 1).val := ⟨⟨_, hy1⟩, rfl⟩
  obtain ⟨q, hq⟩ : ∃ q : Fin 128, q.val = (y 2).val := ⟨⟨_, hy2⟩, rfl⟩
  obtain ⟨d, hd⟩ : ∃ d : Fin 128, d.val = (y 3).val := ⟨⟨_, hy3⟩, rfl⟩
  obtain ⟨r, hr⟩ : ∃ r : Fin 768, r.val = win0_4.index t (1 : Fin 4) * 128 + p.val := ⟨⟨_, by have := p.isLt; omega⟩, rfl⟩
  obtain ⟨s, hs⟩ : ∃ s : Fin 768, s.val = win0_4.index t (2 : Fin 4) * 128 + q.val := ⟨⟨_, by have := q.isLt; omega⟩, rfl⟩
  have ey : y = ix4 (0 : Fin 1) p q d := by
    funext a; apply Fin.ext
    match a with
    | ⟨0, _⟩ => show (y 0).val = 0; omega
    | ⟨1, _⟩ => exact hp.symm
    | ⟨2, _⟩ => exact hq.symm
    | ⟨3, _⟩ => exact hd.symm
  subst ey
  show k0_pay1 (F := Ideal) (iblk m c 0 t) (iblk m c 1 t) (iblk m c 2 t) (iblk m c 3 t) (ix4 (0 : Fin 1) p q d)
    = table (argR m c) (argW m c) (argB m c) (((cfg0.win 4).blk t).view.emb (ix4 (0 : Fin 1) p q d))
  refine (payload_apply (iblk m c 0 t) (iblk m c 1 t) (iblk m c 2 t) (iblk m c 3 t) p q d).trans ?_
  rw [rowBlock_apply m c t p r hr, colBlock_apply m c t q s hs]
  have hk : (binLane (argR m c (ix2 (0 : Fin 1) r)) (argR m c (ix2 (0 : Fin 1) s))).val < 65 := by
    show (bin _ _).toNat < 65
    have := bin_toNat_le (argR m c (ix2 (0 : Fin 1) r)) (argR m c (ix2 (0 : Fin 1) s)); omega
  rw [hiBlock_apply m c t _ hk d, loBlock_apply m c t _ hk d hW hB, add_zero]
  have erow : (⟨(binLane (argR m c (ix2 (0 : Fin 1) r)) (argR m c (ix2 (0 : Fin 1) s))).val, hk⟩ : Fin 65)
      = binRow (argR m c (ix2 (0 : Fin 1) r)) (argR m c (ix2 (0 : Fin 1) s)) :=
    Fin.ext (binRow_val _ _).symm
  rw [erow]
  show tableAt (argR m c) (argW m c) (argB m c) r s d = tableAt (argR m c) (argW m c) (argB m c) _ _ _
  refine tableAt_congr _ _ _ ?_ ?_ ?_
  · show r.val = win0_4.index t (1 : Fin 4) * 128 + 1 * p.val; omega
  · show s.val = win0_4.index t (2 : Fin 4) * 128 + 1 * q.val; omega
  · show d.val = win0_4.index t (3 : Fin 4) * 128 + 1 * d.val; omega

/-! ## The blocks tile the array -/

/-- An index of the array is in point `t`'s block iff each coordinate is in the block's range on its axis. -/
theorem mem_block (t : Fin cfg0.N) (i : S1x768x768x128.Idx) :
    i ∈ ((cfg0.win 4).blk t).view.set ↔ ∀ a : Fin 4, win0_4.index t a * S1x128x128x128.size a ≤ (i a).val
      ∧ (i a).val < win0_4.index t a * S1x128x128x128.size a + S1x128x128x128.size a := by
  show i ∈ ((View.whole main_v13).slice (win0_4.rect t)).set ↔ _
  rw [View.set_slice_whole, Rect.mem_set_unit]
  exact Iff.rfl

/-- Every index of the output is in the block of the point `(i₁ / 128, i₂ / 128)`. -/
theorem covered (i : S1x768x768x128.Idx) :
    ∃ t : Fin cfg0.N, (cfg0.win 4).flush t = true ∧ i ∈ ((cfg0.win 4).blk t).view.set := by
  have hi0 : (i 0).val < 1 := (i 0).isLt
  have hi1 : (i 1).val < 768 := (i 1).isLt
  have hi2 : (i 2).val < 768 := (i 2).isLt
  have hi3 : (i 3).val < 128 := (i 3).isLt
  obtain ⟨t, ht⟩ := index_onto ⟨(i 1).val / 128, by omega⟩ ⟨(i 2).val / 128, by omega⟩
  have q0 : win0_4.index t (0 : Fin 4) = 0 := congrFun ht 0
  have q1 : win0_4.index t (1 : Fin 4) = (i 1).val / 128 := congrFun ht 1
  have q2 : win0_4.index t (2 : Fin 4) = (i 2).val / 128 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 128 ≤ (i 1).val ∧ (i 1).val < win0_4.index t (1 : Fin 4) * 128 + 128; omega
  | ⟨2, _⟩ => show win0_4.index t (2 : Fin 4) * 128 ≤ (i 2).val ∧ (i 2).val < win0_4.index t (2 : Fin 4) * 128 + 128; omega
  | ⟨3, _⟩ => show win0_4.index t (3 : Fin 4) * 128 ≤ (i 3).val ∧ (i 3).val < win0_4.index t (3 : Fin 4) * 128 + 128; omega

/-- THE OUTPUT ARRAY after the run is the table of the arguments. -/
theorem final_eq (c : Dev nD) (hW : AllFin (argW m c)) (hB : AllFin (argB m c)) :
    (dats m 0 c).arrAt 4 cfg0.N = table (argR m c) (argW m c) (argB m c) :=
  (dats m 0 c).arrAt_eq_of_cover 4 (table (argR m c) (argW m c) (argB m c))
    (fun t _ => flushed_eq m c t hW hB) covered

/-! ## The run, read -/

/-- The kernel's run with its result named: the table of the arguments, which end unchanged. -/
theorem kernel_run (hfin : ∀ c : Dev nD, AllFin (argW m c) ∧ AllFin (argB m c)) :
    θ_run defs (onTc (τ := τ) (main (F := Ideal))) ⟨m, fun _ => 0, ρ⟩ fun r => ∀ c : Dev nD,
      r.2.mem ((c : Thread nD τ).loc main_v13) = table (argR m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_eq m c (hfin c).1 (hfin c).2), (h c).2⟩)
    (run_blocks m ρ)

end Cert.RelPos

end
-- ==== Proof.lean ====
/-
  The relative-position embedding: a one-hot matrix product against a padded table, and a gather, are one function.

  Both programs map residue indices `r` (one row of 768 32-bit integers), a weight matrix `W : [128, 65]` and a bias
  `b : [128]` to the array `[1, 768, 768, 128]` whose entry `(0, i, j, c)` is `W[c, d] + b[c]` with
  `d = clip(r_i − r_j, −32, 32) + 32`, a row number in `[0, 64]` (`Proof/Offset.lean`, `Proof/Spec.lean`).

  The reference gathers row `d` of `Wᵀ` and adds the broadcast bias (`Proof/Reference.lean`; the gather read at an
  index is `Proof/LibGatherRows.lean`). The kernel works tile by tile over a 6 × 6 grid: per tile it forms the 0/1
  lane vectors "d = lane" and multiplies them into two 128-row tables built on the host, `T = pad(Wᵀ + b)` and
  `T − T` (the bf16 hi/lo split of `T`, a change of format being the identity on extended reals). A 0/1 vector with
  one 1 picks an entry, so a tile's element is `T[d, c] + (T − T)[d, c]` (`Proof/Tile.lean`); `T[d, c] = W[c, d] + b[c]`
  for `d < 65`, and `T − T = 0` where `T` is a real number (`Proof/Tables.lean`). This last step is the only place the
  precondition is used: `x − x = 0` fails at the infinities, so the entries of `W` and `b` must be finite
  (`Proof/Finite.lean` reads that out of the precondition). The 36 tiles cover the output (`Proof/Blocks.lean`).

  The three frames are the generated frame certificates (the reference's is its generated run with the result
  dropped); the idealization rewrote nothing, so `preserves` is trivial.
-/
import proofs.«409507_j1279900254323_3_alg».proof.Defs
import proofs.«409507_j1279900254323_3_alg».proof.Proof.Gen.Kernel
import proofs.«409507_j1279900254323_3_alg».proof.Proof.Gen.Kernel.Skeleton
import proofs.«409507_j1279900254323_3_alg».proof.Proof.Gen.Kernel.Launch
import proofs.«409507_j1279900254323_3_alg».proof.Proof.Gen.Kernel.Points
import proofs.«409507_j1279900254323_3_alg».proof.Proof.Gen.Kernel.Frame
import proofs.«409507_j1279900254323_3_alg».proof.Proof.Gen.KernelIdeal
import proofs.«409507_j1279900254323_3_alg».proof.Proof.Gen.KernelIdeal.Skeleton
import proofs.«409507_j1279900254323_3_alg».proof.Proof.Gen.KernelIdeal.Launch
import proofs.«409507_j1279900254323_3_alg».proof.Proof.Gen.KernelIdeal.Points
import proofs.«409507_j1279900254323_3_alg».proof.Proof.Gen.KernelIdeal.Frame
import proofs.«409507_j1279900254323_3_alg».proof.Proof.Gen.ReferenceIdeal
import proofs.«409507_j1279900254323_3_alg».proof.Proof.Gen.Pre_finite_inputs
import proofs.«409507_j1279900254323_3_alg».proof.Proof.Gen.KernelIdeal.Value
import proofs.«409507_j1279900254323_3_alg».proof.Proof.Gen.ReferenceIdeal.Run
import proofs.«409507_j1279900254323_3_alg».proof.Proof.Gen.ReferenceIdeal.Read
import proofs.«409507_j1279900254323_3_alg».proof.Proof.Finite
import proofs.«409507_j1279900254323_3_alg».proof.Proof.Reference
import proofs.«409507_j1279900254323_3_alg».proof.Proof.Blocks
import Idealize.ShloMosaic.Adequacy
import Idealize.ShloMosaic.Init

noncomputable section

namespace Cert.Proof

open Idealize.ShloMosaic Idealize.ShloMosaic.TcCoe Idealize.SL.Sem Cert.RelPos

/-- The word-level kernel runs and keeps its arguments: its generated frame certificate. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with finite weights and bias, both programs end with the table of
    the arguments: the kernel by its tiles, the reference operation by operation. -/
theorem algebraic : Cert.algebraic_KernelIdeal_ReferenceIdeal := by
  intro m ρ m' ρ' hpre hagree
  have hfin : ∀ c : Dev Cert.KernelIdeal.nD, Cert.Fin.AllFin (argW m c) ∧ Cert.Fin.AllFin (argB m c) :=
    fun c => allFin_of_pre _ _ _ (hpre c)
  refine ⟨fun c => table (argR m c) (argW m c) (argB m c), kernel_run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, reference_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
